-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x512x100 : Shape := ⟨3, ![512, 512, 100]⟩
abbrev S512 : Shape := ⟨1, ![512]⟩
abbrev S_ : Shape := ⟨0, ![]⟩

class Facts : Prop where
  bcast_S_S512x512x100 : S_.BroadcastsInDim S512x512x100 (![] : Fin 0 → Fin S512x512x100.rank)
  reducesTo_S512x512x100_S_d0_1_2 : S512x512x100.ReducesTo [0, 1, 2] S_
  h_S_ : 0 < S_.numel

variable [Facts]

def fn {F : FTy → Type} [FloatOps F] (main_arg0 : FVec F S512x512x100 .f32) (main_arg1 : IVec S512 32) (main_arg2 : IVec S512 32) (main_arg3 : IVec S512 32) : IVec S_ 1 :=
  let main_v0 : FVec F S512x512x100 .f32 := Host.absf main_arg0
  let main_cst : FVec F S_ .f32 := constant S_ .f32 0x7F800000#32
  let main_v1 : FVec F S512x512x100 .f32 := broadcastInDim S512x512x100 ![] bcast_S_S512x512x100 main_cst
  let main_v2 : IVec S512x512x100 1 := cmpf .olt main_v0 main_v1
  let main_c : IVec S_ 1 := constantI S_ 1 1#1
  let main_v3 : IVec S_ 1 := (fun x v => Host.reduce IntOp.andi x v reducesTo_S512x512x100_S_d0_1_2 h_S_) main_v2 main_c
  main_v3
-- ==== Kernel.lean ====
abbrev S512x512x100 : Shape := ⟨3, ![512, 512, 100]⟩
abbrev S512 : Shape := ⟨1, ![512]⟩
abbrev S512x1 : Shape := ⟨2, ![512, 1]⟩
abbrev S32x512x100 : Shape := ⟨3, ![32, 512, 100]⟩
abbrev S32x1 : Shape := ⟨2, ![32, 1]⟩
abbrev S32x512 : Shape := ⟨2, ![32, 512]⟩
abbrev S32x512x1 : Shape := ⟨3, ![32, 512, 1]⟩

abbrev nBuf : Space → Nat
  | .hbm => 9
  | .vmem => 10
  | .smem => 0
  | _ => 0

abbrev bufTy : (tb : Table) → Fin (tcTables nBuf tb) → BufTy
  | .hbm, ⟨0, _⟩ => ⟨S512x512x100, .f32⟩
  | .hbm, ⟨1, _⟩ => ⟨S512, .i32⟩
  | .hbm, ⟨2, _⟩ => ⟨S512, .i32⟩
  | .hbm, ⟨3, _⟩ => ⟨S512, .i32⟩
  | .hbm, ⟨4, _⟩ => ⟨S512, .i32⟩
  | .hbm, ⟨5, _⟩ => ⟨S512x1, .i32⟩
  | .hbm, ⟨6, _⟩ => ⟨S512x1, .i32⟩
  | .hbm, ⟨7, _⟩ => ⟨S512x1, .i32⟩
  | .hbm, ⟨8, _⟩ => ⟨S512x512x100, .f32⟩
  | .local _ .vmem, ⟨0, _⟩ => ⟨S32x512x100, .f32⟩
  | .local _ .vmem, ⟨1, _⟩ => ⟨S32x512x100, .f32⟩
  | .local _ .vmem, ⟨2, _⟩ => ⟨S32x1, .i32⟩
  | .local _ .vmem, ⟨3, _⟩ => ⟨S32x1, .i32⟩
  | .local _ .vmem, ⟨4, _⟩ => ⟨S32x1, .i32⟩
  | .local _ .vmem, ⟨5, _⟩ => ⟨S32x1, .i32⟩
  | .local _ .vmem, ⟨6, _⟩ => ⟨S32x1, .i32⟩
  | .local _ .vmem, ⟨7, _⟩ => ⟨S32x1, .i32⟩
  | .local _ .vmem, ⟨8, _⟩ => ⟨S32x512x100, .f32⟩
  | .local _ .vmem, ⟨9, _⟩ => ⟨S32x512x100, .f32⟩
  | _, _ => ⟨S512x512x100, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S32x512x100 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S32x1 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S32x512x100 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S512_S512x1 : S512.ShapeCasts S512x1
  iota_S32x512_d1_w32 : S32x512.Iotas .tc 32 [1]
  inb_S32x1_S32x1_0_0 : ∀ a, (![0, 0] : Fin 2 → Nat) a + S32x1.size a ≤ S32x1.size a
  h_S32x1 : 0 < S32x1.numel
  shapeCasts_S32x1_S32x1 : S32x1.ShapeCasts S32x1
  broadcasts_S32x1_S32x512 : S32x1.Broadcasts S32x512
  inb_S32x512x100_S32x512x100_0_0_0 : ∀ a, (![0, 0, 0] : Fin 3 → Nat) a + S32x512x100.size a ≤ S32x512x100.size a
  h_S32x512x100 : 0 < S32x512x100.numel
  shapeCasts_S32x512_S32x512x1 : S32x512.ShapeCasts S32x512x1
  broadcasts_S32x512x1_S32x512x100 : S32x512x1.Broadcasts S32x512x100
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x512x100.size a ≤ S512x512x100.size a
  hwx0_0 : ∀ i : grid0.Coords, EltTy.bits .f32 = 32 ∨ (Rect.block (s := S512x512x100) S32x512x100.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S32x1.size a ≤ S512x1.size a
  hwx0_1 : ∀ i : grid0.Coords, EltTy.bits .i32 = 32 ∨ (Rect.block (s := S512x1) S32x1.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S32x1.size a ≤ S512x1.size a
  hwx0_2 : ∀ i : grid0.Coords, EltTy.bits .i32 = 32 ∨ (Rect.block (s := S512x1) S32x1.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S32x1.size a ≤ S512x1.size a
  hwx0_3 : ∀ i : grid0.Coords, EltTy.bits .i32 = 32 ∨ (Rect.block (s := S512x1) S32x1.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S32x512x100.size a ≤ S512x512x100.size a
  hwx0_4 : ∀ i : grid0.Coords, EltTy.bits .f32 = 32 ∨ (Rect.block (s := S512x512x100) S32x512x100.size (cc0_transform_4 i) (hinb0_4 i)).WholeWords (EltTy.packing .f32)

variable [Facts₀]

abbrev win0_0 : Pipeline.Window sig grid0 :=
  Pipeline.Window.ofSpec (Memref.whole main_arg0) S32x512x100.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S32x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S32x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S32x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4) S32x512x100.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S512x512x100 : Shape := ⟨3, ![512, 512, 100]⟩
abbrev S512 : Shape := ⟨1, ![512]⟩
abbrev S1x512 : Shape := ⟨2, ![1, 512]⟩
abbrev S512x1 : Shape := ⟨2, ![512, 1]⟩
abbrev S512x512 : Shape := ⟨2, ![512, 512]⟩
abbrev S_ : Shape := ⟨0, ![]⟩
abbrev S512x512x1 : Shape := ⟨3, ![512, 512, 1]⟩

abbrev nBuf : Space → Nat
  | .hbm => 45
  | .vmem => 0
  | .smem => 0
  | _ => 0

abbrev bufTy : (tb : Table) → Fin (tcTables nBuf tb) → BufTy
  | .hbm, ⟨0, _⟩ => ⟨S512x512x100, .f32⟩
  | .hbm, ⟨1, _⟩ => ⟨S512, .i32⟩
  | .hbm, ⟨2, _⟩ => ⟨S512, .i32⟩
  | .hbm, ⟨3, _⟩ => ⟨S512, .i32⟩
  | .hbm, ⟨4, _⟩ => ⟨S512, .i32⟩
  | .hbm, ⟨5, _⟩ => ⟨S1x512, .i32⟩
  | .hbm, ⟨6, _⟩ => ⟨S1x512, .f32⟩
  | .hbm, ⟨7, _⟩ => ⟨S512, .i32⟩
  | .hbm, ⟨8, _⟩ => ⟨S512x1, .i32⟩
  | .hbm, ⟨9, _⟩ => ⟨S512x1, .f32⟩
  | .hbm, ⟨10, _⟩ => ⟨S512x1, .i32⟩
  | .hbm, ⟨11, _⟩ => ⟨S512x1, .f32⟩
  | .hbm, ⟨12, _⟩ => ⟨S512x1, .i32⟩
  | .hbm, ⟨13, _⟩ => ⟨S512x512, .i32⟩
  | .hbm, ⟨14, _⟩ => ⟨S512x512, .i32⟩
  | .hbm, ⟨15, _⟩ => ⟨S512x512, .i1⟩
  | .hbm, ⟨16, _⟩ => ⟨S512x512, .f32⟩
  | .hbm, ⟨17, _⟩ => ⟨S512x512, .f32⟩
  | .hbm, ⟨18, _⟩ => ⟨S512x512, .f32⟩
  | .hbm, ⟨19, _⟩ => ⟨S_, .f32⟩
  | .hbm, ⟨20, _⟩ => ⟨S512x512, .f32⟩
  | .hbm, ⟨21, _⟩ => ⟨S512x512, .f32⟩
  | .hbm, ⟨22, _⟩ => ⟨S_, .f32⟩
  | .hbm, ⟨23, _⟩ => ⟨S512x512, .f32⟩
  | .hbm, ⟨24, _⟩ => ⟨S512x512, .f32⟩
  | .hbm, ⟨25, _⟩ => ⟨S512x512, .i32⟩
  | .hbm, ⟨26, _⟩ => ⟨S512x512, .i32⟩
  | .hbm, ⟨27, _⟩ => ⟨S512x512, .i1⟩
  | .hbm, ⟨28, _⟩ => ⟨S512x512, .f32⟩
  | .hbm, ⟨29, _⟩ => ⟨S512x512, .f32⟩
  | .hbm, ⟨30, _⟩ => ⟨S512x512, .f32⟩
  | .hbm, ⟨31, _⟩ => ⟨S_, .f32⟩
  | .hbm, ⟨32, _⟩ => ⟨S512x512, .f32⟩
  | .hbm, ⟨33, _⟩ => ⟨S512x512, .f32⟩
  | .hbm, ⟨34, _⟩ => ⟨S_, .f32⟩
  | .hbm, ⟨35, _⟩ => ⟨S512x512, .f32⟩
  | .hbm, ⟨36, _⟩ => ⟨S512x512, .f32⟩
  | .hbm, ⟨37, _⟩ => ⟨S_, .f32⟩
  | .hbm, ⟨38, _⟩ => ⟨S_, .f32⟩
  | .hbm, ⟨39, _⟩ => ⟨S512x512, .f32⟩
  | .hbm, ⟨40, _⟩ => ⟨S512x512, .f32⟩
  | .hbm, ⟨41, _⟩ => ⟨S512x512, .f32⟩
  | .hbm, ⟨42, _⟩ => ⟨S512x512x1, .f32⟩
  | .hbm, ⟨43, _⟩ => ⟨S512x512x100, .f32⟩
  | .hbm, ⟨44, _⟩ => ⟨S512x512x100, .f32⟩
  | _, _ => ⟨S512x512x100, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_cst : Ref sig .tc := ⟨.hbm, 19, rfl⟩
abbrev main_v15 : Ref sig .tc := ⟨.hbm, 20, rfl⟩
abbrev main_v16 : Ref sig .tc := ⟨.hbm, 21, rfl⟩
abbrev main_cst_0 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_cst_1 : Ref sig .tc := ⟨.hbm, 31, rfl⟩
abbrev main_v25 : Ref sig .tc := ⟨.hbm, 32, rfl⟩
abbrev main_v26 : Ref sig .tc := ⟨.hbm, 33, rfl⟩
abbrev main_cst_2 : Ref sig .tc := ⟨.hbm, 34, rfl⟩
abbrev main_v27 : Ref sig .tc := ⟨.hbm, 35, rfl⟩
abbrev main_v28 : Ref sig .tc := ⟨.hbm, 36, rfl⟩
abbrev main_cst_3 : Ref sig .tc := ⟨.hbm, 37, rfl⟩
abbrev main_call0_v0 : Ref sig .tc := ⟨.hbm, 38, rfl⟩
abbrev main_call0_v1 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩

abbrev nD : Nat := 1
abbrev τ : Topo := Topo.v7x

variable {F : FTy → Type} [FloatOps F]

class Facts₀ : Prop where
  bcast_S512_S1x512_1 : S512.BroadcastsInDim S1x512 (![1] : Fin 1 → Fin S1x512.rank)
  bcast_S512_S512x1_0 : S512.BroadcastsInDim S512x1 (![0] : Fin 1 → Fin S512x1.rank)
  bcast_S1x512_S512x512_0_1 : S1x512.BroadcastsInDim S512x512 (![0, 1] : Fin 2 → Fin S512x512.rank)
  bcast_S512x1_S512x512_0_1 : S512x1.BroadcastsInDim S512x512 (![0, 1] : Fin 2 → Fin S512x512.rank)
  bcast_S_S512x512 : S_.BroadcastsInDim S512x512 (![] : Fin 0 → Fin S512x512.rank)
  bcast_S512x512_S512x512x1_0_1 : S512x512.BroadcastsInDim S512x512x1 (![0, 1] : Fin 2 → Fin S512x512x1.rank)
  bcast_S512x512x1_S512x512x100_0_1_2 : S512x512x1.BroadcastsInDim S512x512x100 (![0, 1, 2] : Fin 3 → Fin S512x512x100.rank)

variable [Facts₀]

class Facts : Prop extends Facts₀ where

variable [Facts]
-- ==== Proof.Spec.lean ====
/-
  The position-decay weighting as one function of the argument arrays.

  A sample `b` has three 32-bit words: the word `e` where its aspect ends (start plus length, added with
  wrap-around), the word `a` where the aspect starts, and its sentence length `s`. Position `l` of the sample is
  weighted, the words read as signed integers,
    * `1 - (e - l) / 40`  when `l < e`                (before the aspect's end: decays with the distance to the end),
    * `1 - (l - a) / 40`  when `e ≤ l` and `l < s`   (inside the sentence: decays with the distance from the start),
    * `0`                 otherwise                    (past the sentence),
  and every one of the 100 features at `(b, l)` is multiplied by that weight. The constants `1`, `40` and `0` are
  kept as their binary32 patterns: the same patterns stand on both sides and are never evaluated.

  The one arithmetic fact the two programs differ by is here too: comparing two words after converting each to
  the real number it denotes is comparing them as signed integers, because the integers embed in the reals
  monotonically.
-/
import Idealize.ShloMosaic.PureOps.Ideal
import Idealize.ShloMosaic.Lib.ValueIdx

noncomputable section

namespace Cert.PositionDecay

open Idealize.ShloMosaic Idealize.ShloMosaic.ValueIdx

/-- A 32-bit word read as a signed integer, as an extended real: what an exact integer-to-float conversion gives. -/
abbrev wordVal (x : BitVec 32) : EReal := ((x.toInt : ℝ) : EReal)

/-- Position `l` as a 32-bit word. -/
abbrev posWord (l : ℕ) : BitVec 32 := BitVec.ofNat 32 l

/-- The weight of position `l` in a sample whose aspect ends at word `e`, starts at word `a`, and whose sentence has
    length `s`. -/
def weight (e a s : BitVec 32) (l : ℕ) : EReal :=
  Scalar.select (IntOp.cmpi .slt (posWord l) e)
    (Ideal.ofBits .f32 0x3F800000#32 - Ideal.div (wordVal e - wordVal (posWord l)) (Ideal.ofBits .f32 0x42200000#32))
    (Scalar.select (IntOp.cmpi .slt (posWord l) s)
      (Ideal.ofBits .f32 0x3F800000#32 - Ideal.div (wordVal (posWord l) - wordVal a) (Ideal.ofBits .f32 0x42200000#32))
      (Ideal.ofBits .f32 0x00000000#32))

/-- The weighted array from the data and the three per-sample COLUMNS `[512, 1]` of end, start and length words. -/
def weightedOfColumns (x : (⟨3, ![512, 512, 100]⟩ : Shape).Idx → EReal)
    (e a s : (⟨2, ![512, 1]⟩ : Shape).Idx → BitVec 32) : (⟨3, ![512, 512, 100]⟩ : Shape).Idx → EReal :=
  fun i => x i * weight (e (ix2 (i 0) 0)) (a (ix2 (i 0) 0)) (s (ix2 (i 0) 0)) (i 1).val

/-- The weighted array from the data and the three per-sample VECTORS `[512]` of aspect start, aspect length and
    sentence length: the end word is start plus length. -/
def weighted (x : (⟨3, ![512, 512, 100]⟩ : Shape).Idx → EReal)
    (a n s : (⟨1, ![512]⟩ : Shape).Idx → BitVec 32) : (⟨3, ![512, 512, 100]⟩ : Shape).Idx → EReal :=
  fun i => x i * weight (IntOp.addi (a (ix1 (i 0))) (n (ix1 (i 0)))) (a (ix1 (i 0))) (s (ix1 (i 0))) (i 1).val

/-- Comparing two words as the real numbers they denote is comparing them as signed integers. -/
theorem cmp_wordVal_lt (x y : BitVec 32) : Ideal.cmp .olt (wordVal x) (wordVal y) = IntOp.cmpi .slt x y := by
  unfold Ideal.cmp IntOp.cmpi
  refine congrArg BitVec.ofBool ?_
  show decide (wordVal x < wordVal y) = x.slt y
  rw [BitVec.slt]
  refine decide_eq_decide.mpr ?_
  rw [EReal.coe_lt_coe_iff, Int.cast_lt]

end Cert.PositionDecay

end
-- ==== Proof.ReferenceWeighted.lean ====
/-
  The reference computes the position-decay weighting.

  Read one operation at a time, entry `(b, l, h)` of the reference's result is the data entry times a choice
  between three values, the choice made by two signed comparisons of the position word `l` (the iota broadcast over
  the samples) with the sample's end word and length word (each a per-sample vector made a column and broadcast
  over the positions). Every layout operation on the way only copies: followed back, each reads its vector at the
  sample `b` or the iota at the position `l`. What is left is the weight of `Spec.lean` term for term.
-/
import proofs.«171542_j26783416058417_1_alg».proof.Proof.Gen.ReferenceIdeal.Read
import proofs.«171542_j26783416058417_1_alg».proof.Proof.Spec

noncomputable section

namespace Cert.PositionDecay.Reference

open Cert.ReferenceIdeal Cert.ReferenceIdeal.Read Idealize.ShloMosaic Idealize.ShloMosaic.ValueIdx

/-- The sample an entry belongs to, reached through the end word's column and its broadcast over the positions
    used by the first comparison. -/
theorem sample_cmp_end (i : S512x512x100.Idx) :
    idx_main_v4 (idx_main_v10 (idx_main_v31 (idx_main_v32 i))) = ix1 (i 0) :=
  funext fun a => match a with | ⟨0, _⟩ => rfl

/-- The same sample through the converted end word's column (the first value's subtraction). -/
theorem sample_val_end (i : S512x512x100.Idx) :
    idx_main_v4 (idx_main_v12 (idx_main_v31 (idx_main_v32 i))) = ix1 (i 0) :=
  funext fun a => match a with | ⟨0, _⟩ => rfl

/-- The same sample through the start word's column (the second value's subtraction). -/
theorem sample_val_start (i : S512x512x100.Idx) :
    idx_main_v6 (idx_main_v23 (idx_main_v31 (idx_main_v32 i))) = ix1 (i 0) :=
  funext fun a => match a with | ⟨0, _⟩ => rfl

/-- The same sample through the length word's column (the second comparison). -/
theorem sample_cmp_len (i : S512x512x100.Idx) :
    idx_main_v8 (idx_main_v20 (idx_main_v31 (idx_main_v32 i))) = ix1 (i 0) :=
  funext fun a => match a with | ⟨0, _⟩ => rfl

/-- The reference's result, as the generated reading states it, is the weighted array of the arguments. -/
theorem result_eq_weighted (x0 : S512x512x100.Idx → EReal) (x1 x2 x3 : S512.Idx → BitVec 32) :
    val_main_v33 (F := Ideal) x0 x1 x2 x3 = weighted x0 x1 x2 x3 := by
  funext i
  simp only [val_main_v33_apply, val_main_v32_apply, val_main_v31_apply, val_main_v30_apply, val_main_v29_apply,
    val_main_v28_apply, val_main_v27_apply, val_main_v26_apply, val_main_v25_apply, val_main_v24_apply,
    val_main_v23_apply, val_main_v22_apply, val_main_v21_apply, val_main_v20_apply, val_main_v19_apply,
    val_main_v18_apply, val_main_v17_apply, val_main_v16_apply, val_main_v15_apply, val_main_v14_apply,
    val_main_v13_apply, val_main_v12_apply, val_main_v11_apply, val_main_v10_apply, val_main_v9_apply,
    val_main_v8_apply, val_main_v7_apply, val_main_v6_apply, val_main_v5_apply, val_main_v4_apply,
    val_main_v3_apply, val_main_v2_apply, val_main_v1_apply, val_main_v0_apply, val_main_call0_v1_apply,
    val_main_call0_v0_apply, val_main_cst_apply, val_main_cst_0_apply, val_main_cst_1_apply, val_main_cst_2_apply,
    val_main_cst_3_apply, sample_cmp_end, sample_val_end, sample_val_start, sample_cmp_len]
  rfl

end Cert.PositionDecay.Reference

end
-- ==== Proof.LibKeepdims.lean ====
/-
  Two layout operations read at an index given by coordinates, for the column a `keepdims` row reduction leaves:
  a vector `[a]` cast to the column `[a, 1]`, and a column `[a, 1]` broadcast along its unit axis to `[a, b]`.
  Both indices are written with the literal-size constructors `ix1`, `ix2`, so that each lemma applies to a printed
  operation by unification, as the library's leading-unit-axis forms of the same operations do.
-/
import Idealize.ShloMosaic.Lib.Pipeline.Value
import Idealize.ShloMosaic.Lib.ValueIdx

namespace Idealize.ShloMosaic.ValueIdx

open Idealize.ShloMosaic

variable {α : Type}

/-- An `[a]` array cast to the column `[a, 1]` reads, at `(i, u)`, the operand at `i`, whatever the unit
    coordinate `u`: both have row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.LibKeepdims3.lean ====
/-
  The keep-dimension forms of a reduction over the last axis of a rank-3 array, read at an index: an [a, b] array cast
  to the column form [a, b, 1], and an [a, b, 1] array broadcast along the last axis to [a, b, c].
-/
import Idealize.ShloMosaic.Lib.Pipeline.Value
import Idealize.ShloMosaic.Lib.ValueLayout
import Idealize.ShloMosaic.Lib.ValueIdx

noncomputable section

namespace Cert.Keepdims3

open Idealize.ShloMosaic Idealize.ShloMosaic.ValueIdx

/-- An [a, b] array cast to [a, b, 1] reads, at (i, j, u), the operand at (i, j), whatever the unit coordinate u. -/
theorem shapeCast_ab_ab1_apply {α : Type} {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An [a, b, 1] array broadcast to [a, b, c] reads, at (i, j, k), the operand's one entry of (i, j). -/
theorem broadcastTo_ab1_abc_apply {α : Type} {a b c : ℕ} (v : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ v h (ix3 i j k) = v (ix3 i j (0 : Fin 1)) := by
  refine broadcastTo_apply v h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

end Cert.Keepdims3

end
-- ==== Proof.StepWritten.lean ====
/-
  What one grid step of the kernel writes, entry by entry.

  A step holds 32 samples. It builds the position index `l` along the second axis, converts it and the three
  per-sample columns (end, start, length) to reals exactly, compares and subtracts them, divides by 40, chooses
  among the two decaying values and zero, and multiplies the block of data by the chosen weight broadcast over the
  100 features. Converting exactly and then comparing is comparing the words as signed integers (`Spec.lean`), so
  entry `(p, l, h)` of the block written is the data entry times the weight of `Spec.lean` for sample `p` of the
  step at position `l`.
-/
import proofs.«171542_j26783416058417_1_alg».proof.Proof.Gen.KernelIdeal.Skeleton
import proofs.«171542_j26783416058417_1_alg».proof.Proof.Spec
import proofs.«171542_j26783416058417_1_alg».proof.Proof.LibKeepdims
import proofs.«171542_j26783416058417_1_alg».proof.Proof.LibKeepdims3
import Idealize.ShloMosaic.Lib.Pipeline.Value

noncomputable section

namespace Cert.PositionDecay.Kernel

open Cert.KernelIdeal Cert.KernelIdeal.Gen Idealize.ShloMosaic Idealize.ShloMosaic.ValueIdx Cert.Keepdims3

/-- The position index the step builds: at `(p, l)` the word `l`. -/
theorem position_apply (p : Fin 32) (l : Fin 512) :
    iota .tc S32x512 32 [1] iota_S32x512_d1_w32 (ix2 p l) = posWord l.val := by
  show BitVec.ofNat 32 (0 * 512 + l.val) = BitVec.ofNat 32 l.val
  rw [Nat.zero_mul, Nat.zero_add]

/-- Entry `(p, l, h)` of the block a step writes: the data entry times the weight of sample `p` at position `l`,
    from the step's end, start and length columns. -/
theorem written_apply (e a s : Vec Ideal S32x1 .i32) (x : Vec Ideal S32x512x100 .f32)
    (p : Fin 32) (l : Fin 512) (h : Fin 100) :
    k0_pay1 (F := Ideal) e a s x (ix3 p l h)
      = x (ix3 p l h) * weight (e (ix2 p 0)) (a (ix2 p 0)) (s (ix2 p 0)) l.val := by
  unfold k0_pay1
  dsimp only
  rw [mulf_apply, broadcastTo_ab1_abc_apply, shapeCast_ab_ab1_apply]
  simp only [select_apply, cmpf_apply, subf_apply, divf_apply, broadcast_apply, sitofp_apply,
    broadcastTo_a1_ab_apply, shapeCast_self]
  rw [position_apply p l]
  unfold weight
  rw [← cmp_wordVal_lt, ← cmp_wordVal_lt]
  rfl

end Cert.PositionDecay.Kernel

end
-- ==== Proof.ResultArray.lean ====
/-
  The kernel's result array, from what its sixteen grid steps write.

  Step `t` stages rows `32 t … 32 t + 31` of the data and of the three per-sample columns, and writes back the same
  rows of the result; positions and features are whole in every block. So entry `(p, l, h)` of the block a step
  writes is entry `(32 t + p, l, h)` of ONE array, the data weighted sample by sample from the columns, and the
  sixteen blocks tile the 512 samples: after the run the result is that array. The columns are what the host
  prepares before the launch: start plus length, start, and sentence length, each vector laid out as a column.
-/
import proofs.«171542_j26783416058417_1_alg».proof.Proof.Gen.KernelIdeal.Value
import proofs.«171542_j26783416058417_1_alg».proof.Proof.StepWritten
import Idealize.ShloMosaic.Lib.StableHlo.Run

noncomputable section

namespace Cert.PositionDecay.Kernel

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat)

variable (m : (ℓ : Loc nD τ sig) → Buf (Elt Ideal) ℓ) (ρ : Dev nD → PrngReg)

theorem origin3 : (![0, 0, 0] : Fin 3 → Nat) = fun _ => 0 :=
  funext fun a => match a with | ⟨0, _⟩ => rfl | ⟨1, _⟩ => rfl | ⟨2, _⟩ => rfl

theorem origin2 : (![0, 0] : Fin 2 → Nat) = fun _ => 0 :=
  funext fun a => match a with | ⟨0, _⟩ => rfl | ⟨1, _⟩ => rfl

/-- The row of a step's columns that entry `j` of its block belongs to. -/
abbrev sampleRow (j : S32x512x100.Idx) : S32x1.Idx := ix2 (j 0) 0

/-- The row of the whole columns that entry `i` of the array belongs to. -/
abbrev sampleCol (i : S512x512x100.Idx) : S512x1.Idx := ix2 (i 0) 0

theorem weightedOfColumns_apply (X : S512x512x100.Idx → EReal) (E A S : S512x1.Idx → BitVec 32) (i : S512x512x100.Idx) :
    weightedOfColumns X E A S i = X i * weight (E (sampleCol i)) (A (sampleCol i)) (S (sampleCol i)) (i 1).val := rfl

/-- Entry `j` of the block a step writes, for any index of the block. -/
theorem written_at (e a s : Vec Ideal S32x1 .i32) (x : Vec Ideal S32x512x100 .f32) (j : S32x512x100.Idx) :
    k0_pay1 (F := Ideal) e a s x j
      = x j * weight (e (sampleRow j)) (a (sampleRow j)) (s (sampleRow j)) (j 1).val := by
  obtain ⟨p, l, h, rfl⟩ : ∃ (p : Fin 32) (l : Fin 512) (h : Fin 100), j = ix3 p l h := ⟨j 0, j 1, j 2, eq_ix3 j⟩
  exact written_apply e a s x p l h

/-- The data array as the launch finds it. -/
abbrev dataArr (c : Dev nD) : S512x512x100.Idx → EReal := V m c main_arg0
/-- The column of end words (start plus length) as the launch finds it. -/
abbrev endCol (c : Dev nD) : S512x1.Idx → BitVec 32 := V m c main_v1
/-- The column of start words as the launch finds it. -/
abbrev startCol (c : Dev nD) : S512x1.Idx → BitVec 32 := V m c main_v2
/-- The column of sentence-length words as the launch finds it. -/
abbrev lenCol (c : Dev nD) : S512x1.Idx → BitVec 32 := V m c main_v3

/-- The block indices over the sixteen steps: every window's block moves along the samples with the step and
    stays at the origin of the other axes. -/
theorem block_indices : ∀ t : Fin cfg0.N,
    win0_0.index t (0 : Fin 3) = win0_4.index t (0 : Fin 3) ∧ win0_0.index t (1 : Fin 3) = 0 ∧ win0_0.index t (2 : Fin 3) = 0
    ∧ win0_4.index t (1 : Fin 3) = 0 ∧ win0_4.index t (2 : Fin 3) = 0
    ∧ win0_1.index t (0 : Fin 2) = win0_4.index t (0 : Fin 3) ∧ win0_1.index t (1 : Fin 2) = 0
    ∧ win0_2.index t (0 : Fin 2) = win0_4.index t (0 : Fin 3) ∧ win0_2.index t (1 : Fin 2) = 0
    ∧ win0_3.index t (0 : Fin 2) = win0_4.index t (0 : Fin 3) ∧ win0_3.index t (1 : Fin 2) = 0
    ∧ win0_4.index t (0 : Fin 3) ≤ 15 :=
  (by decide +kernel : ∀ t : Fin grid0.N, _)

/-- Every group of 32 samples is some step's. -/
theorem step_of_group : ∀ q : Fin 16, ∃ t : Fin cfg0.N, win0_4.index t = ![q.val, 0, 0] :=
  (by decide +kernel : ∀ q : Fin 16, ∃ t : Fin grid0.N, win0_4.index t = ![q.val, 0, 0])

/-- What step `t` writes back is block `t` of the data weighted from the three columns as the launch finds them. -/
theorem written_block (c : Dev nD) (t : Fin cfg0.N) :
    (dats m 0 c).flushed 4 t = ((cfg0.win 4).blk t).view.read (Elt Ideal)
      (weightedOfColumns (dataArr m c) (endCol m c) (startCol m c) (lenCol m c)) := by
  rw [Cert.KernelIdeal.Value.flushed4]
  unfold out0_4
  rw [View.canon_unit_zero origin3]
  simp only [View.ld_unit_zero (S := S32x512x100) origin3, View.ld_unit_zero (S := S32x1) origin2]
  obtain ⟨e0, e1, e2, e3, e4, e5, e6, e7, e8, e9, e10, e11⟩ := block_indices t
  funext j
  show k0_pay1 (F := Ideal) (iblk m c 1 t) (iblk m c 2 t) (iblk m c 3 t) (iblk m c 0 t) j
      = weightedOfColumns (dataArr m c) (endCol m c) (startCol m c) (lenCol m c) (((cfg0.win 4).blk t).view.emb j)
  refine (written_at _ _ _ _ j).trans ?_
  rw [weightedOfColumns_apply]
  show dataArr m c (((cfg0.win 0).blk t).view.emb j)
        * weight (endCol m c (((cfg0.win 1).blk t).view.emb (sampleRow j)))
            (startCol m c (((cfg0.win 2).blk t).view.emb (sampleRow j)))
            (lenCol m c (((cfg0.win 3).blk t).view.emb (sampleRow j))) (j 1).val
      = dataArr m c (((cfg0.win 4).blk t).view.emb j)
        * weight (endCol m c (sampleCol (((cfg0.win 4).blk t).view.emb j)))
            (startCol m c (sampleCol (((cfg0.win 4).blk t).view.emb j)))
            (lenCol m c (sampleCol (((cfg0.win 4).blk t).view.emb j))) ((((cfg0.win 4).blk t).view.emb j) 1).val
  have hj0 : (j 0).val < 32 := (j 0).isLt
  have h0 : ((cfg0.win 0).blk t).view.emb j = ((cfg0.win 4).blk t).view.emb j := by
    funext a; apply Fin.ext
    match a with
    | ⟨0, _⟩ => show win0_0.index t (0 : Fin 3) * 32 + 1 * (j 0).val = win0_4.index t (0 : Fin 3) * 32 + 1 * (j 0).val; omega
    | ⟨1, _⟩ => show win0_0.index t (1 : Fin 3) * 512 + 1 * (j 1).val = win0_4.index t (1 : Fin 3) * 512 + 1 * (j 1).val; omega
    | ⟨2, _⟩ => show win0_0.index t (2 : Fin 3) * 100 + 1 * (j 2).val = win0_4.index t (2 : Fin 3) * 100 + 1 * (j 2).val; omega
  have h1 : ((cfg0.win 1).blk t).view.emb (sampleRow j) = sampleCol (((cfg0.win 4).blk t).view.emb j) := by
    funext a; apply Fin.ext
    match a with
    | ⟨0, _⟩ => show win0_1.index t (0 : Fin 2) * 32 + 1 * (j 0).val = win0_4.index t (0 : Fin 3) * 32 + 1 * (j 0).val; omega
    | ⟨1, _⟩ => show win0_1.index t (1 : Fin 2) * 1 + 1 * 0 = 0; omega
  have h2 : ((cfg0.win 2).blk t).view.emb (sampleRow j) = sampleCol (((cfg0.win 4).blk t).view.emb j) := by
    funext a; apply Fin.ext
    match a with
    | ⟨0, _⟩ => show win0_2.index t (0 : Fin 2) * 32 + 1 * (j 0).val = win0_4.index t (0 : Fin 3) * 32 + 1 * (j 0).val; omega
    | ⟨1, _⟩ => show win0_2.index t (1 : Fin 2) * 1 + 1 * 0 = 0; omega
  have h3 : ((cfg0.win 3).blk t).view.emb (sampleRow j) = sampleCol (((cfg0.win 4).blk t).view.emb j) := by
    funext a; apply Fin.ext
    match a with
    | ⟨0, _⟩ => show win0_3.index t (0 : Fin 2) * 32 + 1 * (j 0).val = win0_4.index t (0 : Fin 3) * 32 + 1 * (j 0).val; omega
    | ⟨1, _⟩ => show win0_3.index t (1 : Fin 2) * 1 + 1 * 0 = 0; omega
  have hl : ((((cfg0.win 4).blk t).view.emb j) 1).val = (j 1).val := by
    show win0_4.index t (1 : Fin 3) * 512 + 1 * (j 1).val = (j 1).val; omega
  rw [h0, h1, h2, h3, hl]

/-- An index of the array is in step `t`'s block iff each coordinate is in the block's range on its axis. -/
theorem mem_block (t : Fin cfg0.N) (i : S512x512x100.Idx) :
    i ∈ ((cfg0.win 4).blk t).view.set ↔ ∀ a : Fin 3, win0_4.index t a * S32x512x100.size a ≤ (i a).val
      ∧ (i a).val < win0_4.index t a * S32x512x100.size a + S32x512x100.size a := by
  show i ∈ ((View.whole main_v4).slice (win0_4.rect t)).set ↔ _
  rw [View.set_slice_whole, Rect.mem_set_unit]
  exact Iff.rfl

/-- The sixteen blocks tile the array: sample `b` is in the block of step `b / 32`. -/
theorem covered (i : S512x512x100.Idx) :
    ∃ t : Fin cfg0.N, (cfg0.win 4).flush t = true ∧ i ∈ ((cfg0.win 4).blk t).view.set := by
  have hi0 : (i 0).val < 512 := (i 0).isLt
  have hi1 : (i 1).val < 512 := (i 1).isLt
  have hi2 : (i 2).val < 100 := (i 2).isLt
  obtain ⟨t, ht⟩ := step_of_group ⟨(i 0).val / 32, by omega⟩
  have q0 : win0_4.index t (0 : Fin 3) = (i 0).val / 32 := congrFun ht 0
  have q1 : win0_4.index t (1 : Fin 3) = 0 := congrFun ht 1
  have q2 : win0_4.index t (2 : Fin 3) = 0 := congrFun ht 2
  refine ⟨t, flush0_4 t, ?_⟩
  rw [mem_block]
  intro a
  match a with
  | ⟨0, _⟩ => show win0_4.index t (0 : Fin 3) * 32 ≤ (i 0).val ∧ (i 0).val < win0_4.index t (0 : Fin 3) * 32 + 32; omega
  | ⟨1, _⟩ => show win0_4.index t (1 : Fin 3) * 512 ≤ (i 1).val ∧ (i 1).val < win0_4.index t (1 : Fin 3) * 512 + 512; omega
  | ⟨2, _⟩ => show win0_4.index t (2 : Fin 3) * 100 ≤ (i 2).val ∧ (i 2).val < win0_4.index t (2 : Fin 3) * 100 + 100; omega

/-- After the run the result array is the data weighted from the three columns as the launch finds them. -/
theorem result_array (c : Dev nD) :
    (dats m 0 c).arrAt 4 cfg0.N = weightedOfColumns (dataArr m c) (endCol m c) (startCol m c) (lenCol m c) :=
  (dats m 0 c).arrAt_eq_of_cover 4 _ (fun t _ => written_block m c t) covered

/-! ## The columns the host prepares -/

theorem dataArr_eq (c : Dev nD) : dataArr m c = m ((c : Thread nD τ).loc main_arg0) := V_main_arg0 m c

/-- The end column is start plus length, word by word with wrap-around, laid out as a column. -/
theorem endCol_eq (c : Dev nD) :
    endCol m c = shapeCast S512x1 (addi (m ((c : Thread nD τ).loc main_arg1)) (m ((c : Thread nD τ).loc main_arg2))) shapeCasts_S512_S512x1 := by
  show V m c main_v1 = _
  dsimp only [V, hostOps0]; after_results; rfl

/-- The start column is the start vector laid out as a column. -/
theorem startCol_eq (c : Dev nD) :
    startCol m c = shapeCast S512x1 (m ((c : Thread nD τ).loc main_arg1)) shapeCasts_S512_S512x1 := by
  show V m c main_v2 = _
  dsimp only [V, hostOps0]; after_results; rfl

/-- The length column is the sentence-length vector laid out as a column. -/
theorem lenCol_eq (c : Dev nD) :
    lenCol m c = shapeCast S512x1 (m ((c : Thread nD τ).loc main_arg3)) shapeCasts_S512_S512x1 := by
  show V m c main_v3 = _
  dsimp only [V, hostOps0]; after_results; rfl

/-- The argument arrays as launched, at their literal types. -/
abbrev dataArg (c : Dev nD) : S512x512x100.Idx → EReal := m ((c : Thread nD τ).loc main_arg0)
abbrev startArg (c : Dev nD) : S512.Idx → BitVec 32 := m ((c : Thread nD τ).loc main_arg1)
abbrev lengthArg (c : Dev nD) : S512.Idx → BitVec 32 := m ((c : Thread nD τ).loc main_arg2)
abbrev sentenceArg (c : Dev nD) : S512.Idx → BitVec 32 := m ((c : Thread nD τ).loc main_arg3)

theorem endCol_apply (c : Dev nD) (b : Fin 512) :
    endCol m c (ix2 b 0) = IntOp.addi (startArg m c (ix1 b)) (lengthArg m c (ix1 b)) := by
  rw [endCol_eq, shapeCast_a_a1_apply]; rfl

theorem startCol_apply (c : Dev nD) (b : Fin 512) : startCol m c (ix2 b 0) = startArg m c (ix1 b) := by
  rw [startCol_eq, shapeCast_a_a1_apply]

theorem lenCol_apply (c : Dev nD) (b : Fin 512) : lenCol m c (ix2 b 0) = sentenceArg m c (ix1 b) := by
  rw [lenCol_eq, shapeCast_a_a1_apply]

/-- Weighted from the columns the host prepares is weighted from the argument vectors. -/
theorem columns_eq (c : Dev nD) :
    weightedOfColumns (dataArr m c) (endCol m c) (startCol m c) (lenCol m c)
      = weighted (dataArg m c) (startArg m c) (lengthArg m c) (sentenceArg m c) := by
  funext i
  obtain ⟨b, l, h, rfl⟩ : ∃ (b : Fin 512) (l : Fin 512) (h : Fin 100), i = ix3 b l h := ⟨i 0, i 1, i 2, eq_ix3 i⟩
  show dataArr m c (ix3 b l h) * weight (endCol m c (ix2 b 0)) (startCol m c (ix2 b 0)) (lenCol m c (ix2 b 0)) l.val
    = dataArg m c (ix3 b l h) * weight (IntOp.addi (startArg m c (ix1 b)) (lengthArg m c (ix1 b))) (startArg m c (ix1 b))
        (sentenceArg m c (ix1 b)) l.val
  rw [endCol_apply, startCol_apply, lenCol_apply, dataArr_eq]

/-- The kernel's run: it terminates with the result at the weighted array of the arguments, the arguments unchanged. -/
theorem run : θ_run defs (onTc (τ := τ) (main (F := Ideal))) ⟨m, fun _ => 0, ρ⟩ fun r => ∀ c : Dev nD,
      r.2.mem ((c : Thread nD τ).loc main_v4)
        = weighted (dataArg m c) (startArg m c) (lengthArg m c) (sentenceArg m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans ((result_array m c).trans (columns_eq m c)), (h c).2⟩)
    (Cert.KernelIdeal.Value.run_blocks m ρ)

end Cert.PositionDecay.Kernel

end
-- ==== Proof.lean ====
/-
  The kernel weights every position of every sample by a position-decay mask and multiplies the data by it; the
  reference does the same with plain array operations. Both compute, for sample `b`, position `l` and feature `h`,
      data[b, l, h] · w(b, l),
      w(b, l) = 1 - (e_b - l) / 40   if l < e_b,      e_b = start_b + length_b (32-bit, wrapping),
              = 1 - (l - start_b) / 40   if e_b ≤ l < sentence_b,
              = 0                        otherwise.
  The one difference between the two programs is where they compare: the reference compares the integer words,
  the kernel converts them to floats first and compares those. Read over the extended reals the conversion is exact,
  and the integers embed in the reals in order, so the two comparisons agree on every input (`Spec.lean`). No law
  of arithmetic is needed beyond that, so finiteness of the data is never used.

  `Spec.lean` states the weighted array; `ReferenceWeighted.lean` reads the reference's result as it;
  `StepWritten.lean` reads one grid step's written block entry by entry; `ResultArray.lean` assembles the sixteen
  blocks into the whole array and reads the columns the host prepares. The three programs' termination and the
  arguments' preservation are the generated frames; the idealization rewrote nothing, so it preserves trivially.
-/
import proofs.«171542_j26783416058417_1_alg».proof.Defs
import proofs.«171542_j26783416058417_1_alg».proof.Proof.Gen.Kernel
import proofs.«171542_j26783416058417_1_alg».proof.Proof.Gen.Kernel.Skeleton
import proofs.«171542_j26783416058417_1_alg».proof.Proof.Gen.Kernel.Launch
import proofs.«171542_j26783416058417_1_alg».proof.Proof.Gen.Kernel.Points
import proofs.«171542_j26783416058417_1_alg».proof.Proof.Gen.Kernel.Frame
import proofs.«171542_j26783416058417_1_alg».proof.Proof.Gen.KernelIdeal
import proofs.«171542_j26783416058417_1_alg».proof.Proof.Gen.KernelIdeal.Skeleton
import proofs.«171542_j26783416058417_1_alg».proof.Proof.Gen.KernelIdeal.Launch
import proofs.«171542_j26783416058417_1_alg».proof.Proof.Gen.KernelIdeal.Points
import proofs.«171542_j26783416058417_1_alg».proof.Proof.Gen.KernelIdeal.Frame
import proofs.«171542_j26783416058417_1_alg».proof.Proof.Gen.ReferenceIdeal
import proofs.«171542_j26783416058417_1_alg».proof.Proof.Gen.Pre_finite_inputs
import proofs.«171542_j26783416058417_1_alg».proof.Proof.Gen.KernelIdeal.Value
import proofs.«171542_j26783416058417_1_alg».proof.Proof.Gen.ReferenceIdeal.Run
import proofs.«171542_j26783416058417_1_alg».proof.Proof.Gen.ReferenceIdeal.Read
import proofs.«171542_j26783416058417_1_alg».proof.Proof.ReferenceWeighted
import proofs.«171542_j26783416058417_1_alg».proof.Proof.ResultArray
import Idealize.ShloMosaic.Adequacy
import Idealize.ShloMosaic.Init

noncomputable section

namespace Cert.Proof

open Idealize.ShloMosaic Idealize.ShloMosaic.TcCoe Idealize.SL.Sem

/-- Both idealized programs end with the weighted array of arguments that agree: the kernel's sixteen written
    blocks assemble into it, and the reference's operations read as it entry by entry. -/
theorem algebraic : Cert.algebraic_KernelIdeal_ReferenceIdeal := by
  intro m ρ m' ρ' _ hagree
  refine ⟨_, Cert.PositionDecay.Kernel.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v33_eq, Cert.PositionDecay.Reference.result_eq_weighted,
    (hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.ReferenceIdeal.Value.run (F := Ideal) m ρ),
  trivial,
  algebraic⟩

end Cert.Proof

end
